-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_arg9 : FVec F S256x256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256 .f32) (main_arg9 : FVec F S256x256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x256 .f32) (main_arg1 : IVec S2x800000 32) (main_arg2 : FVec F S50000x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg2
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩

abbrev nBuf : Space → Nat
  | .hbm => 95
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S850000x1, .f32⟩
  | .hbm, ⟨52, _⟩ => ⟨S50000x256, .bf16⟩
  | .hbm, ⟨53, _⟩ => ⟨S256x256, .bf16⟩
  | .hbm, ⟨54, _⟩ => ⟨S50000x256, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x256, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S1x256, .f32⟩
  | .hbm, ⟨71, _⟩ => ⟨S256x256, .bf16⟩
  | .hbm, ⟨72, _⟩ => ⟨S50000x256, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x256, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S256x256, .bf16⟩
  | .hbm, ⟨90, _⟩ => ⟨S256x256, .bf16⟩
  | .hbm, ⟨91, _⟩ => ⟨S1x256, .f32⟩
  | .hbm, ⟨92, _⟩ => ⟨S1x256, .f32⟩
  | .hbm, ⟨93, _⟩ => ⟨S50000x256, .f32⟩
  | .hbm, ⟨94, _⟩ => ⟨S50000x256, .f32⟩
  | .local _ .vmem, ⟨0, _⟩ => ⟨S2000x256, .bf16⟩
  | .local _ .vmem, ⟨1, _⟩ => ⟨S2000x256, .bf16⟩
  | .local _ .vmem, ⟨2, _⟩ => ⟨S256x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S256x256, .bf16⟩
  | .local _ .vmem, ⟨17, _⟩ => ⟨S1x256, .f32⟩
  | .local _ .vmem, ⟨18, _⟩ => ⟨S256x256, .bf16⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66_0 : Ref sig .tc := ⟨.hbm, 93, rfl⟩
abbrev main_v66_1 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc2_stg8_0 : Ref sig .tc := ⟨.vmem, 22, rfl⟩
abbrev cc2_stg8_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc2_sem8_0 : DmaSem sig := 22
abbrev cc2_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S50000x256.size a
  hwx2_7 : ∀ i : grid2.Coords, EltTy.bits .f32 = 32 ∨ (Rect.block (s := S50000x256) S2000x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S50000x256.size a
  hwx2_8 : ∀ i : grid2.Coords, EltTy.bits .f32 = 32 ∨ (Rect.block (s := S50000x256) S2000x256.size (cc2_transform_8 i) (hinb2_8 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_v31) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66_0) S2000x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v66_1) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x256, .f32⟩
  | .hbm, ⟨84, _⟩ => ⟨S850000x1, .f32⟩
  | .hbm, ⟨85, _⟩ => ⟨S850000x256, .f32⟩
  | .hbm, ⟨86, _⟩ => ⟨S850000x256, .f32⟩
  | .hbm, ⟨87, _⟩ => ⟨S_, .f32⟩
  | .hbm, ⟨88, _⟩ => ⟨S50000x256, .f32⟩
  | .hbm, ⟨89, _⟩ => ⟨S850000x1, .i32⟩
  | .hbm, ⟨90, _⟩ => ⟨S50000x256, .f32⟩
  | .hbm, ⟨91, _⟩ => ⟨S1x256, .f32⟩
  | .hbm, ⟨92, _⟩ => ⟨S50000x256, .f32⟩
  | .hbm, ⟨93, _⟩ => ⟨S50000x256, .f32⟩
  | .hbm, ⟨94, _⟩ => ⟨S50000x256, .f32⟩
  | .hbm, ⟨95, _⟩ => ⟨S1x256, .f32⟩
  | .hbm, ⟨96, _⟩ => ⟨S50000x256, .f32⟩
  | .hbm, ⟨97, _⟩ => ⟨S50000x256, .f32⟩
  | .hbm, ⟨98, _⟩ => ⟨S50000x256, .f32⟩
  | .hbm, ⟨99, _⟩ => ⟨S50000x256, .f32⟩
  | .hbm, ⟨100, _⟩ => ⟨S1x256, .f32⟩
  | .hbm, ⟨101, _⟩ => ⟨S50000x256, .f32⟩
  | .hbm, ⟨102, _⟩ => ⟨S50000x256, .f32⟩
  | .hbm, ⟨103, _⟩ => ⟨S50000x256, .f32⟩
  | .hbm, ⟨104, _⟩ => ⟨S50000x256, .f32⟩
  | .hbm, ⟨105, _⟩ => ⟨S_, .f32⟩
  | .hbm, ⟨106, _⟩ => ⟨S50000x256, .f32⟩
  | .hbm, ⟨107, _⟩ => ⟨S50000x256, .f32⟩
  | .hbm, ⟨108, _⟩ => ⟨S_, .f32⟩
  | .hbm, ⟨109, _⟩ => ⟨S50000x256, .f32⟩
  | .hbm, ⟨110, _⟩ => ⟨S50000x256, .f32⟩
  | .hbm, ⟨111, _⟩ => ⟨S50000x256, .f32⟩
  | .hbm, ⟨112, _⟩ => ⟨S_, .f32⟩
  | .hbm, ⟨113, _⟩ => ⟨S50000x256, .f32⟩
  | .hbm, ⟨114, _⟩ => ⟨S50000x256, .f32⟩
  | .hbm, ⟨115, _⟩ => ⟨S50000x256, .f32⟩
  | .hbm, ⟨116, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.Carry.lean ====
/-
  What each stretch of host operations, and each kernel region, leaves alone.

  Between the launch and the return the program's buffers pass through eight boundaries: three stretches of host
  operations, the first region, a stretch, the second region, a stretch, the third region. A stretch rewrites exactly the
  buffers its operations name as results; a region rewrites exactly the arrays of its windows. Every other buffer holds at
  the later boundary what it held at the earlier one. So a buffer computed early (the source and destination indices of
  the edges, their normalisation weights) is still there, unchanged, when a later stretch reads it, and an argument that
  nothing writes still holds its launch contents wherever it is read.
-/
import proofs.«182096_j90486370992781_1_alg».proof.Proof.Gen.KernelIdeal.Frame
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]

/-- The buffers each stretch writes. -/
abbrev ops0_W : List (Ref sig .tc) := [main_v0, main_v1, main_v2, main_v3, main_v4, main_v5, main_v6, main_cst, main_v7, main_cst_0, main_v8, main_v9, main_v10, main_cst_1, main_v11, main_v12, main_v13, main_cst_2]
abbrev ops0_1_W : List (Ref sig .tc) := [main_call0_v0, main_call0_v1, main_v14]
abbrev ops0_2_W : List (Ref sig .tc) := [main_c, main_v15, main_v16, main_c_3, main_v17, main_v18, main_v19, main_v20, main_v21, main_c_4, main_v22, main_v23, main_c_5, main_v24, main_v25, main_v26, main_v27, main_v28, main_v29, main_v30, main_v31, main_v32]
abbrev ops1_W : List (Ref sig .tc) := [main_c_6, main_v34, main_v35, main_c_7, main_v36, main_v37, main_v38, main_v39, main_v40, main_v41, main_v42, main_cst_8, main_v43, main_v44, main_v45, main_v46, main_v47]
abbrev ops2_W : List (Ref sig .tc) := [main_c_9, main_v49, main_v50, main_c_10, main_v51, main_v52, main_v53, main_v54, main_v55, main_v56, main_v57, main_cst_11, main_v58, main_v59, main_v60, main_v61, main_v62, main_v63, main_v64, main_v65]

theorem ops0_writes : (hostOps0 : List (HloOp τ sig (Elt F))).Forall fun op => op.writes ⊆ (ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem ops0_1_writes : (hostOps0_1 : List (HloOp τ sig (Elt F))).Forall fun op => op.writes ⊆ (ops0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem ops0_2_writes : (hostOps0_2 : List (HloOp τ sig (Elt F))).Forall fun op => op.writes ⊆ (ops0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem ops1_writes : (hostOps1 : List (HloOp τ sig (Elt F))).Forall fun op => op.writes ⊆ (ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem ops2_writes : (hostOps2 : List (HloOp τ sig (Elt F))).Forall fun op => op.writes ⊆ (ops2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg) (c : Dev nD)

/-! ## One boundary to the next -/

theorem c01 (r : Ref sig .tc) (h : r ∉ ops0_W) : W1 m ρ c (Proc.devRef .tc r) = W0 m ρ c (Proc.devRef .tc r) :=
  StableHlo.after_of_writes_sub hostOps0 _ ops0_writes h
theorem c12 (r : Ref sig .tc) (h : r ∉ ops0_1_W) : W2 m ρ c (Proc.devRef .tc r) = W1 m ρ c (Proc.devRef .tc r) :=
  StableHlo.after_of_writes_sub hostOps0_1 _ ops0_1_writes h
theorem c23 (r : Ref sig .tc) (h : r ∉ ops0_2_W) : W3 m ρ c (Proc.devRef .tc r) = W2 m ρ c (Proc.devRef .tc r) :=
  StableHlo.after_of_writes_sub hostOps0_2 _ ops0_2_writes h
theorem c34 (r : Ref sig .tc) (h : ∀ w, Pipeline.arrRef spec0 w ≠ r) : W4 m ρ c (Proc.devRef .tc r) = W3 m ρ c (Proc.devRef .tc r) :=
  W4_of_ne m ρ c r h
theorem c45 (r : Ref sig .tc) (h : r ∉ ops1_W) : W5 m ρ c (Proc.devRef .tc r) = W4 m ρ c (Proc.devRef .tc r) :=
  StableHlo.after_of_writes_sub hostOps1 _ ops1_writes h
theorem c56 (r : Ref sig .tc) (h : ∀ w, Pipeline.arrRef spec1 w ≠ r) : W6 m ρ c (Proc.devRef .tc r) = W5 m ρ c (Proc.devRef .tc r) :=
  W6_of_ne m ρ c r h
theorem c67 (r : Ref sig .tc) (h : r ∉ ops2_W) : W7 m ρ c (Proc.devRef .tc r) = W6 m ρ c (Proc.devRef .tc r) :=
  StableHlo.after_of_writes_sub hostOps2 _ ops2_writes h

/-! ## A reference nothing has written yet holds its launch contents -/

theorem launch2 (r : Ref sig .tc) (h0 : r ∉ ops0_W) (h1 : r ∉ ops0_1_W) :
    W2 m ρ c (Proc.devRef .tc r) = m ((c : Thread nD τ).loc r) :=
  (c12 m ρ c r h1).trans ((c01 m ρ c r h0).trans rfl)

theorem launch4 (r : Ref sig .tc) (h0 : r ∉ ops0_W) (h1 : r ∉ ops0_1_W) (h2 : r ∉ ops0_2_W)
    (h3 : ∀ w, Pipeline.arrRef spec0 w ≠ r) : W4 m ρ c (Proc.devRef .tc r) = m ((c : Thread nD τ).loc r) :=
  (c34 m ρ c r h3).trans ((c23 m ρ c r h2).trans (launch2 m ρ c r h0 h1))

theorem launch6 (r : Ref sig .tc) (h0 : r ∉ ops0_W) (h1 : r ∉ ops0_1_W) (h2 : r ∉ ops0_2_W)
    (h3 : ∀ w, Pipeline.arrRef spec0 w ≠ r) (h4 : r ∉ ops1_W) (h5 : ∀ w, Pipeline.arrRef spec1 w ≠ r) :
    W6 m ρ c (Proc.devRef .tc r) = m ((c : Thread nD τ).loc r) :=
  (c56 m ρ c r h5).trans ((c45 m ρ c r h4).trans (launch4 m ρ c r h0 h1 h2 h3))

theorem launch7 (r : Ref sig .tc) (h0 : r ∉ ops0_W) (h1 : r ∉ ops0_1_W) (h2 : r ∉ ops0_2_W)
    (h3 : ∀ w, Pipeline.arrRef spec0 w ≠ r) (h4 : r ∉ ops1_W) (h5 : ∀ w, Pipeline.arrRef spec1 w ≠ r) (h6 : r ∉ ops2_W) :
    W7 m ρ c (Proc.devRef .tc r) = m ((c : Thread nD τ).loc r) :=
  (c67 m ρ c r h6).trans (launch6 m ρ c r h0 h1 h2 h3 h4 h5)

end Cert.KernelIdeal.Carry

end
-- ==== Proof.Weights.lean ====
/-
  The edges' indices and weights, which both programs compute the same way.

  From the edge list (two rows of 800000 node numbers) the program forms the source indices (the first row followed by
  0 … 49999, one self loop per node) and the destination indices (the second row followed by the same), counts for each
  node the edges that arrive at it (a scatter-add of ones), and gives a node the weight 1 / sqrt (count) where the count
  is positive and zero elsewhere; an edge's weight is the product of its two endpoints' node weights (each looked up
  after a negative index has been wrapped by adding 50000). These are host operations on integers and on one float
  table; they hold for any reading of the floats, and are stated so. Each buffer, at the boundary where it is last
  written, is the corresponding stage of the other program's run, applied to the launch contents of the edge list.
-/
import proofs.«182096_j90486370992781_1_alg».proof.Proof.Gen.KernelIdeal.Frame
import proofs.«182096_j90486370992781_1_alg».proof.Proof.RefRead
import proofs.«182096_j90486370992781_1_alg».proof.Proof.Carry
import Idealize.ShloMosaic.Lib.StableHlo.Run

set_option maxRecDepth 16384

noncomputable section

namespace Cert.KernelIdeal.Weights

open Cert.KernelIdeal Cert.KernelIdeal.Gen Cert.KernelIdeal.Carry Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The source indices: the edge list's first row followed by the self loops. -/
theorem src1 : W1 m ρ c (Proc.devRef .tc main_v3) = val_main_v3 (F := F) (m ((c : Thread nD τ).loc main_arg1)) := by
  show StableHlo.after hostOps0 (W0 m ρ c) (Proc.devRef .tc main_v3) = _
  after_results
  rfl

/-- The destination indices: the edge list's second row followed by the self loops. -/
theorem dst1 : W1 m ρ c (Proc.devRef .tc main_v6) = val_main_v6 (F := F) (m ((c : Thread nD τ).loc main_arg1)) := by
  show StableHlo.after hostOps0 (W0 m ρ c) (Proc.devRef .tc main_v6) = _
  after_results
  rfl

/-- Which nodes have a positive count. -/
theorem pos1 : W1 m ρ c (Proc.devRef .tc main_v12) = val_main_v12 (F := F) (m ((c : Thread nD τ).loc main_arg1)) := by
  show StableHlo.after hostOps0 (W0 m ρ c) (Proc.devRef .tc main_v12) = _
  after_results
  rfl

/-- The reciprocal square roots of the counts. -/
theorem rs1 : W1 m ρ c (Proc.devRef .tc main_v13) = val_main_v13 (F := F) (m ((c : Thread nD τ).loc main_arg1)) := by
  show StableHlo.after hostOps0 (W0 m ρ c) (Proc.devRef .tc main_v13) = _
  after_results
  rfl

/-- The zero that stands in for the weight of a node nothing arrives at. -/
theorem zero1 : W1 m ρ c (Proc.devRef .tc main_cst_2) = val_main_cst_2 (F := F) := by
  show StableHlo.after hostOps0 (W0 m ρ c) (Proc.devRef .tc main_cst_2) = _
  after_results
  rfl

/-- The nodes' weights: the reciprocal square root of the count where it is positive, zero elsewhere. -/
theorem dinv2 : W2 m ρ c (Proc.devRef .tc main_v14) = val_main_v14 (F := F) (m ((c : Thread nD τ).loc main_arg1)) := by
  show StableHlo.after hostOps0_1 (W1 m ρ c) (Proc.devRef .tc main_v14) = _
  generalize hW : W1 m ρ c = Wa
  after_results
  subst hW
  rw [pos1, rs1, zero1]
  rfl

theorem src2 : W2 m ρ c (Proc.devRef .tc main_v3) = val_main_v3 (F := F) (m ((c : Thread nD τ).loc main_arg1)) :=
  (c12 m ρ c main_v3 (by decide)).trans (src1 m ρ c)
theorem dst2 : W2 m ρ c (Proc.devRef .tc main_v6) = val_main_v6 (F := F) (m ((c : Thread nD τ).loc main_arg1)) :=
  (c12 m ρ c main_v6 (by decide)).trans (dst1 m ρ c)

set_option maxHeartbeats 2000000 in
/-- The edges' weights, as a column: the product of the source's and the destination's node weights. -/
theorem norm3 : W3 m ρ c (Proc.devRef .tc main_v30) = val_main_v38 (F := F) (m ((c : Thread nD τ).loc main_arg1)) := by
  show StableHlo.after hostOps0_2 (W2 m ρ c) (Proc.devRef .tc main_v30) = _
  generalize hW : W2 m ρ c = Wa
  after_results_simp
  subst hW
  rw [dinv2, src2, dst2]
  rfl

theorem src3 : W3 m ρ c (Proc.devRef .tc main_v3) = val_main_v3 (F := F) (m ((c : Thread nD τ).loc main_arg1)) :=
  (c23 m ρ c main_v3 (by decide)).trans (src2 m ρ c)
theorem dst3 : W3 m ρ c (Proc.devRef .tc main_v6) = val_main_v6 (F := F) (m ((c : Thread nD τ).loc main_arg1)) :=
  (c23 m ρ c main_v6 (by decide)).trans (dst2 m ρ c)

end Cert.KernelIdeal.Weights

end
-- ==== Proof.Spec.lean ====
/-
  The mathematics of the two programs, index by index, over the extended reals.

  A node table has 50000 rows (the graph's nodes) and 256 columns (features); a weight table is 256 by 256; a bias is a
  table of one row. Three formulas make up the network between the shared aggregation steps:

    * `mm a w`: entry (r, q) of the matrix product, the sum over k of a (r, k) * w (k, q);
    * `relu agg b`: the bias row added to every row of `agg`, then the maximum with zero;
    * `addRow agg b`: the bias row added to every row;
    * `blend h prev …`: the gated mix alpha * h + (1 - alpha) * prev, with alpha the logistic function of
      h·gw + gwb + prev·gu + gub, the bias rows added to every row.

  Sums over k are finite sums in the extended reals, whose addition is commutative and associative, so the order in
  which a program accumulates a product, or the row block in which it computes an entry, does not matter.
-/
import Idealize.ShloMosaic.PureOps.Ideal
import Idealize.ShloMosaic.Lib.ValueIdx

noncomputable section

open scoped BigOperators

namespace Cert.Gcn

open Idealize.ShloMosaic Idealize.ShloMosaic.ValueIdx

/-- Node tables: one row per node, one column per feature. -/
abbrev Nodes : Shape := ⟨2, ![50000, 256]⟩
/-- Weight tables. -/
abbrev Sq : Shape := ⟨2, ![256, 256]⟩
/-- Bias rows. -/
abbrev Row : Shape := ⟨2, ![1, 256]⟩

/-- Row `r` of `a` against column `q` of `w`. -/
def rowDot (a : Nodes.Idx → EReal) (w : Sq.Idx → EReal) (r : Fin 50000) (q : Fin 256) : EReal :=
  ∑ k : Fin 256, a (ix2 r k) * w (ix2 k q)

/-- The matrix product of a node table with a weight table. -/
def mm (a : Nodes.Idx → EReal) (w : Sq.Idx → EReal) : Nodes.Idx → EReal :=
  fun i => rowDot a w (i 0) (i 1)

/-- The bias row added to every row. -/
def addRow (agg : Nodes.Idx → EReal) (b : Row.Idx → EReal) : Nodes.Idx → EReal :=
  fun i => agg i + b (ix2 (0 : Fin 1) (i 1))

/-- The bias row added to every row, then the maximum with zero. -/
def relu (agg : Nodes.Idx → EReal) (b : Row.Idx → EReal) : Nodes.Idx → EReal :=
  fun i => max (addRow agg b i) (Ideal.ofBits .f32 0x00000000#32)

/-- The gate's argument: h·gw + gwb + prev·gu + gub, summed in this order. -/
def logits (h prev : Nodes.Idx → EReal) (gw : Sq.Idx → EReal) (gwb : Row.Idx → EReal) (gu : Sq.Idx → EReal)
    (gub : Row.Idx → EReal) : Nodes.Idx → EReal :=
  fun i => ((mm h gw i + gwb (ix2 (0 : Fin 1) (i 1))) + mm prev gu i) + gub (ix2 (0 : Fin 1) (i 1))

/-- The gated mix of the new embedding `h` with the previous one. -/
def blend (h prev : Nodes.Idx → EReal) (gw : Sq.Idx → EReal) (gwb : Row.Idx → EReal) (gu : Sq.Idx → EReal)
    (gub : Row.Idx → EReal) : Nodes.Idx → EReal :=
  fun i => Ideal.logistic (logits h prev gw gwb gu gub i) * h i
    + (Ideal.ofBits .f32 0x3F800000#32 - Ideal.logistic (logits h prev gw gwb gu gub i)) * prev i

end Cert.Gcn

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Region0.lean ====
/-
  The first layer's matrix product, as the first kernel region leaves it.

  The region walks 25 grid points; point t takes rows 2000 t … 2000 t + 1999 of the node table (a block of 2000 rows, all
  256 columns) and the whole weight table, multiplies them, and writes the product back as rows 2000 t … 2000 t + 1999 of
  the result. Entry (p, q) of a block's product is the sum over k of block (p, k) * weight (k, q); the block's row p is
  the table's row 2000 t + p, so this is entry (2000 t + p, q) of the product of the whole tables. The 25 blocks tile the
  50000 rows (row r lies in block r / 2000), so the result array ends as the whole product `Gcn.mm`.
-/
import proofs.«182096_j90486370992781_1_alg».proof.Proof.Gen.KernelIdeal.Frame
import proofs.«182096_j90486370992781_1_alg».proof.Proof.Spec
import proofs.«182096_j90486370992781_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Closed0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Entry (p, q) of what the body computes from a block of rows `x0` and the weights `x1`: the sum over k of
    x0 (p, k) * x1 (k, q). -/
theorem pay_apply (x0 : Vec Ideal S2000x256 .bf16) (x1 : Vec Ideal S256x256 .bf16) (p : Fin 2000) (q : Fin 256) :
    k0_pay1 (F := Ideal) x0 x1 (ix2 p q) = ∑ k : Fin 256, x0 (ix2 p k) * x1 (ix2 k q) := by
  unfold k0_pay1
  simp only [shapeCast_self]
  exact Cert.LibPlainDot.matmul_zero_apply dot_S2000x256_S256x256_S2000x256_1_0_0_1_n_n rfl rfl rfl rfl rfl rfl none x0 x1 p q

/-- If the block `x0` holds rows n·2000 … of the table `a` and `x1` is the weight table `w`, the body's value at
    an entry of the block is the whole product at the corresponding entry of the table. -/
theorem blk (a : Gcn.Nodes.Idx → EReal) (w : Gcn.Sq.Idx → EReal)
    (x0 : Vec Ideal S2000x256 .bf16) (x1 : Vec Ideal S256x256 .bf16) (n : Nat)
    (hx0 : ∀ (j : S2000x256.Idx) (i : Gcn.Nodes.Idx), (i 0).val = n * 2000 + (j 0).val → (i 1).val = (j 1).val → x0 j = a i)
    (hx1 : ∀ (j : S256x256.Idx) (i : Gcn.Sq.Idx), (i 0).val = (j 0).val → (i 1).val = (j 1).val → x1 j = w i)
    (j : S2000x256.Idx) (i : Gcn.Nodes.Idx) (h0 : (i 0).val = n * 2000 + (j 0).val) (h1 : (i 1).val = (j 1).val) :
    k0_pay1 (F := Ideal) x0 x1 j = Gcn.mm a w i := by
  obtain ⟨p, q, rfl⟩ : ∃ (p : Fin 2000) (q : Fin 256), j = ix2 p q := ⟨j 0, j 1, eq_ix2 j⟩
  obtain ⟨r, s, rfl⟩ : ∃ (r : Fin 50000) (s : Fin 256), i = ix2 r s := ⟨i 0, i 1, eq_ix2 i⟩
  rw [pay_apply]
  show _ = ∑ k : Fin 256, a (ix2 r k) * w (ix2 k s)
  refine Finset.sum_congr rfl fun k _ => ?_
  rw [hx0 (ix2 p k) (ix2 r k) h0 rfl, hx1 (ix2 k q) (ix2 k s) rfl h1]

variable (V : (c : Dev nD) → (b : Ref sig .tc) → Buf (Elt Ideal) ((c : Thread nD τ).loc b))

/-- The block indices of the three windows at point t: the row block moves with t, the weight table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of the node table is its rows t·2000 …. -/
theorem rd0 (c : Dev nD) (t : Fin cfg0.N) (j : S2000x256.Idx) (i : Gcn.Nodes.Idx)
    (h0 : (i 0).val = t.val * 2000 + (j 0).val) (h1 : (i 1).val = (j 1).val) :
    iblk0 V c 0 t j = V c main_v31 i := by
  obtain ⟨e0, e1, -, -, -, -⟩ := idx_facts t
  show V c main_v31 (((cfg0.win 0).blk t).view.emb j) = V c main_v31 i
  refine congrArg (V c main_v31) (funext fun a => Fin.ext ?_)
  match a with
  | ⟨0, _⟩ => show win0_0.index t (0 : Fin 2) * 2000 + 1 * (j 0).val = (i 0).val; omega
  | ⟨1, _⟩ => show win0_0.index t (1 : Fin 2) * 256 + 1 * (j 1).val = (i 1).val; omega

/-- Point t's block of the weight table is the whole table. -/
theorem rd1 (c : Dev nD) (t : Fin cfg0.N) (j : S256x256.Idx) (i : Gcn.Sq.Idx)
    (h0 : (i 0).val = (j 0).val) (h1 : (i 1).val = (j 1).val) :
    iblk0 V c 1 t j = V c main_v32 i := by
  obtain ⟨-, -, e2, e3, -, -⟩ := idx_facts t
  show V c main_v32 (((cfg0.win 1).blk t).view.emb j) = V c main_v32 i
  refine congrArg (V c main_v32) (funext fun a => Fin.ext ?_)
  match a with
  | ⟨0, _⟩ => show win0_1.index t (0 : Fin 2) * 256 + 1 * (j 0).val = (i 0).val; omega
  | ⟨1, _⟩ => show win0_1.index t (1 : Fin 2) * 256 + 1 * (j 1).val = (i 1).val; omega

/-- What point t writes back is block t of the whole product. -/
theorem flushed (c : Dev nD) (t : Fin cfg0.N) :
    (dat0 (F := Ideal) V c).flushed 2 t
      = ((cfg0.win 2).blk t).view.read (Elt Ideal) (Gcn.mm (V c main_v31) (V c main_v32)) := by
  show (cfg0.win 2).cut (grid0.coords t) ((dat0 (F := Ideal) V c).after 2 t) = _
  rw [after0_2]
  unfold out0_2
  rw [View.canon_unit_zero hz]
  simp only [View.ld_unit_zero (S := S2000x256) hz, View.ld_unit_zero (S := S256x256) hz]
  obtain ⟨-, -, -, -, e4, e5⟩ := idx_facts t
  funext j
  refine blk (V c main_v31) (V c main_v32) (iblk0 V c 0 t) (iblk0 V c 1 t) t.val (rd0 V c t) (rd1 V c t) j
    (((cfg0.win 2).blk t).view.emb j) ?_ ?_
  · show win0_2.index t (0 : Fin 2) * 2000 + 1 * (j 0).val = t.val * 2000 + (j 0).val; omega
  · show win0_2.index t (1 : Fin 2) * 256 + 1 * (j 1).val = (j 1).val; omega

/-- An index of the result array lies in point t's block iff each coordinate lies in the block's range. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v33).slice (win0_2.rect t)).set ↔ _
  rw [View.set_slice_whole, Rect.mem_set_unit]
  exact Iff.rfl

/-- Every entry of the result array is written: row r by point r / 2000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 2000 < 25 := by omega
  refine ⟨⟨(i 0).val / 2000, ht⟩, flush0_2 _, ?_⟩
  rw [mem_blk]
  obtain ⟨-, -, -, -, e4, e5⟩ := idx_facts ⟨(i 0).val / 2000, ht⟩
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val
      ∧ (i 1).val < win0_2.index ⟨(i 0).val / 2000, ht⟩ (1 : Fin 2) * 256 + 256
    rw [e5]; omega

/-- The first region's result array after the region: the product of the two tables it read. -/
theorem final (c : Dev nD) :
    (dat0 (F := Ideal) V c).arrAt 2 cfg0.N = Gcn.mm (V c main_v31) (V c main_v32) :=
  (dat0 (F := Ideal) V c).arrAt_eq_of_cover 2 _ (fun t _ => flushed V c t) cover

end Cert.KernelIdeal.Closed0

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.Region1.lean ====
/-
  The second layer's matrix product, as the second kernel region leaves it.

  Point t of 25 takes rows 2000 t … 2000 t + 1999 of the aggregated table, the whole bias row and the whole weight table;
  it adds the bias row to every row of the block, takes the maximum with zero, multiplies by the weights, and writes the
  product back as rows 2000 t … 2000 t + 1999 of the result. Entry (p, q) of a block's product is the sum over k of
  max (block (p, k) + bias (0, k), 0) * weight (k, q), and the block's row p is the table's row 2000 t + p: this is entry
  (2000 t + p, q) of `Gcn.mm (Gcn.relu agg b) w`. The 25 blocks tile the 50000 rows.
-/
import proofs.«182096_j90486370992781_1_alg».proof.Proof.Gen.KernelIdeal.Frame
import proofs.«182096_j90486370992781_1_alg».proof.Proof.Spec
import proofs.«182096_j90486370992781_1_alg».proof.Proof.LibPlainDot
import proofs.«182096_j90486370992781_1_alg».proof.Proof.LibRowBroadcast
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Closed1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Entry (p, q) of what the body computes from a block of rows `x0`, the bias row `x1` and the weights `x2`. -/
theorem pay_apply (x0 : Vec Ideal S2000x256 .f32) (x1 : Vec Ideal S1x256 .f32) (x2 : Vec Ideal S256x256 .bf16)
    (p : Fin 2000) (q : Fin 256) :
    k1_pay1 (F := Ideal) x0 x1 x2 (ix2 p q)
      = ∑ k : Fin 256, max (x0 (ix2 p k) + x1 (ix2 (0 : Fin 1) k)) (Ideal.ofBits .f32 0x00000000#32) * x2 (ix2 k q) := by
  unfold k1_pay1
  simp only [shapeCast_self]
  refine (Cert.LibPlainDot.matmul_zero_apply (φ₁ := .bf16) (φ₂ := .bf16) dot_S2000x256_S256x256_S2000x256_1_0_0_1_n_n rfl rfl rfl rfl rfl rfl none _ x2 p q).trans ?_
  refine Finset.sum_congr rfl fun k _ => ?_
  refine congrArg (· * x2 (ix2 k q)) ?_
  show max (x0 (ix2 p k) + broadcastTo S2000x256 x1 broadcasts_S1x256_S2000x256 (ix2 p k)) (Ideal.ofBits .f32 0x00000000#32) = _
  rw [Idealize.ShloMosaic.RowBroadcast.broadcastTo_row x1 broadcasts_S1x256_S2000x256 p k]

/-- The body's value at an entry of a block that holds rows n·2000 … of `agg`, beside the whole bias row and the whole
    weight table: the second layer's product at the corresponding entry of the table. -/
theorem blk (agg : Gcn.Nodes.Idx → EReal) (b : Gcn.Row.Idx → EReal) (w : Gcn.Sq.Idx → EReal)
    (x0 : Vec Ideal S2000x256 .f32) (x1 : Vec Ideal S1x256 .f32) (x2 : Vec Ideal S256x256 .bf16) (n : Nat)
    (hx0 : ∀ (j : S2000x256.Idx) (i : Gcn.Nodes.Idx), (i 0).val = n * 2000 + (j 0).val → (i 1).val = (j 1).val → x0 j = agg i)
    (hx1 : ∀ (j : S1x256.Idx) (i : Gcn.Row.Idx), (i 0).val = (j 0).val → (i 1).val = (j 1).val → x1 j = b i)
    (hx2 : ∀ (j : S256x256.Idx) (i : Gcn.Sq.Idx), (i 0).val = (j 0).val → (i 1).val = (j 1).val → x2 j = w i)
    (j : S2000x256.Idx) (i : Gcn.Nodes.Idx) (h0 : (i 0).val = n * 2000 + (j 0).val) (h1 : (i 1).val = (j 1).val) :
    k1_pay1 (F := Ideal) x0 x1 x2 j = Gcn.mm (Gcn.relu agg b) w i := by
  obtain ⟨p, q, rfl⟩ : ∃ (p : Fin 2000) (q : Fin 256), j = ix2 p q := ⟨j 0, j 1, eq_ix2 j⟩
  obtain ⟨r, s, rfl⟩ : ∃ (r : Fin 50000) (s : Fin 256), i = ix2 r s := ⟨i 0, i 1, eq_ix2 i⟩
  rw [pay_apply]
  show _ = ∑ k : Fin 256, max (agg (ix2 r k) + b (ix2 (0 : Fin 1) k)) (Ideal.ofBits .f32 0x00000000#32) * w (ix2 k s)
  refine Finset.sum_congr rfl fun k _ => ?_
  rw [hx0 (ix2 p k) (ix2 r k) h0 rfl, hx1 (ix2 (0 : Fin 1) k) (ix2 (0 : Fin 1) k) rfl rfl, hx2 (ix2 k q) (ix2 k s) rfl h1]

variable (V : (c : Dev nD) → (b : Ref sig .tc) → Buf (Elt Ideal) ((c : Thread nD τ).loc b))

/-- The block indices of the four windows at point t: the row blocks move with t, the bias row and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point t's block of the aggregated table is its rows t·2000 …. -/
theorem rd0 (c : Dev nD) (t : Fin cfg1.N) (j : S2000x256.Idx) (i : Gcn.Nodes.Idx)
    (h0 : (i 0).val = t.val * 2000 + (j 0).val) (h1 : (i 1).val = (j 1).val) :
    iblk1 V c 0 t j = V c main_v45 i := by
  obtain ⟨e0, e1, -, -, -, -, -, -⟩ := idx_facts t
  show V c main_v45 (((cfg1.win 0).blk t).view.emb j) = V c main_v45 i
  refine congrArg (V c main_v45) (funext fun a => Fin.ext ?_)
  match a with
  | ⟨0, _⟩ => show win1_0.index t (0 : Fin 2) * 2000 + 1 * (j 0).val = (i 0).val; omega
  | ⟨1, _⟩ => show win1_0.index t (1 : Fin 2) * 256 + 1 * (j 1).val = (i 1).val; omega

/-- Point t's block of the bias row is the whole row. -/
theorem rd1 (c : Dev nD) (t : Fin cfg1.N) (j : S1x256.Idx) (i : Gcn.Row.Idx)
    (h0 : (i 0).val = (j 0).val) (h1 : (i 1).val = (j 1).val) :
    iblk1 V c 1 t j = V c main_v46 i := by
  obtain ⟨-, -, e2, e3, -, -, -, -⟩ := idx_facts t
  show V c main_v46 (((cfg1.win 1).blk t).view.emb j) = V c main_v46 i
  refine congrArg (V c main_v46) (funext fun a => Fin.ext ?_)
  match a with
  | ⟨0, _⟩ => show win1_1.index t (0 : Fin 2) * 1 + 1 * (j 0).val = (i 0).val; omega
  | ⟨1, _⟩ => show win1_1.index t (1 : Fin 2) * 256 + 1 * (j 1).val = (i 1).val; omega

/-- Point t's block of the weight table is the whole table. -/
theorem rd2 (c : Dev nD) (t : Fin cfg1.N) (j : S256x256.Idx) (i : Gcn.Sq.Idx)
    (h0 : (i 0).val = (j 0).val) (h1 : (i 1).val = (j 1).val) :
    iblk1 V c 2 t j = V c main_v47 i := by
  obtain ⟨-, -, -, -, e4, e5, -, -⟩ := idx_facts t
  show V c main_v47 (((cfg1.win 2).blk t).view.emb j) = V c main_v47 i
  refine congrArg (V c main_v47) (funext fun a => Fin.ext ?_)
  match a with
  | ⟨0, _⟩ => show win1_2.index t (0 : Fin 2) * 256 + 1 * (j 0).val = (i 0).val; omega
  | ⟨1, _⟩ => show win1_2.index t (1 : Fin 2) * 256 + 1 * (j 1).val = (i 1).val; omega

/-- What point t writes back is block t of the second layer's product. -/
theorem flushed (c : Dev nD) (t : Fin cfg1.N) :
    (dat1 (F := Ideal) V c).flushed 3 t
      = ((cfg1.win 3).blk t).view.read (Elt Ideal) (Gcn.mm (Gcn.relu (V c main_v45) (V c main_v46)) (V c main_v47)) := by
  show (cfg1.win 3).cut (grid1.coords t) ((dat1 (F := Ideal) V c).after 3 t) = _
  rw [after1_3]
  unfold out1_3
  rw [View.canon_unit_zero hz]
  simp only [View.ld_unit_zero (S := S2000x256) hz, View.ld_unit_zero (S := S1x256) hz, View.ld_unit_zero (S := S256x256) hz]
  obtain ⟨-, -, -, -, -, -, e6, e7⟩ := idx_facts t
  funext j
  refine blk (V c main_v45) (V c main_v46) (V c main_v47) (iblk1 V c 0 t) (iblk1 V c 1 t) (iblk1 V c 2 t) t.val
    (rd0 V c t) (rd1 V c t) (rd2 V c t) j (((cfg1.win 3).blk t).view.emb j) ?_ ?_
  · show win1_3.index t (0 : Fin 2) * 2000 + 1 * (j 0).val = t.val * 2000 + (j 0).val; omega
  · show win1_3.index t (1 : Fin 2) * 256 + 1 * (j 1).val = (j 1).val; omega

/-- An index of the result array lies in point t's block iff each coordinate lies in the block's range. -/
theorem mem_blk (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v48).slice (win1_3.rect t)).set ↔ _
  rw [View.set_slice_whole, Rect.mem_set_unit]
  exact Iff.rfl

/-- Every entry of the result array is written: row r by point r / 2000. -/
theorem cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have ht : (i 0).val / 2000 < 25 := by omega
  refine ⟨⟨(i 0).val / 2000, ht⟩, flush1_3 _, ?_⟩
  rw [mem_blk]
  obtain ⟨-, -, -, -, -, -, e6, e7⟩ := idx_facts ⟨(i 0).val / 2000, ht⟩
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val
      ∧ (i 1).val < win1_3.index ⟨(i 0).val / 2000, ht⟩ (1 : Fin 2) * 256 + 256
    rw [e7]; omega

/-- The second region's result array after the region. -/
theorem final (c : Dev nD) :
    (dat1 (F := Ideal) V c).arrAt 3 cfg1.N = Gcn.mm (Gcn.relu (V c main_v45) (V c main_v46)) (V c main_v47) :=
  (dat1 (F := Ideal) V c).arrAt_eq_of_cover 3 _ (fun t _ => flushed V c t) cover

end Cert.KernelIdeal.Closed1

end
-- ==== Proof.Region2.lean ====
/-
  The gate, as the third kernel region leaves its two result arrays.

  Point t of 25 takes rows 2000 t … 2000 t + 1999 of the second aggregation and of the previous embedding, and the whole
  of two weight tables and three bias rows. It forms the new embedding h = agg + bias row; the gate's argument
  h·gw + gwb + prev·gu + gub; alpha, the logistic function of that; and the mix alpha * h + (1 - alpha) * prev. It writes
  the mix back as rows 2000 t … of the first result and h as rows 2000 t … of the second. At an entry (p, q) of a block
  every one of these is the same formula of the tables' entries in row 2000 t + p: a matrix product's entry is a sum
  over k along that row, a bias contributes its entry in column q. So the two result arrays end as `Gcn.blend` and
  `Gcn.addRow` of the tables the region read; the 25 blocks tile the 50000 rows.
-/
import proofs.«182096_j90486370992781_1_alg».proof.Proof.Gen.KernelIdeal.Frame
import proofs.«182096_j90486370992781_1_alg».proof.Proof.Spec
import proofs.«182096_j90486370992781_1_alg».proof.Proof.LibPlainDot
import proofs.«182096_j90486370992781_1_alg».proof.Proof.LibRowBroadcast
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Closed2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.RowBroadcast (broadcastTo_row)

theorem hz : (![0, 0] : Fin 2 → Nat) = fun _ => 0 := funext fun a => by fin_cases a <;> rfl

/-- Entry (p, q) of the new embedding's block: the aggregated entry plus the bias row's entry in column q. -/
theorem pay1_apply (x0 : Vec Ideal S2000x256 .f32) (x1 : Vec Ideal S1x256 .f32) (p : Fin 2000) (q : Fin 256) :
    k2_pay1 (F := Ideal) x0 x1 (ix2 p q) = x0 (ix2 p q) + x1 (ix2 (0 : Fin 1) q) := by
  unfold k2_pay1
  simp only [shapeCast_self]
  show x0 (ix2 p q) + broadcastTo S2000x256 x1 broadcasts_S1x256_S2000x256 (ix2 p q) = _
  rw [broadcastTo_row x1 broadcasts_S1x256_S2000x256 p q]

/-- The logistic function applied to a table, at an entry. -/
theorem logistic_apply (a : FVec Ideal S2000x256 .f32) (i : S2000x256.Idx) : logistic a i = Ideal.logistic (a i) := rfl

/-- Entry (p, q) of the mixed block. -/
theorem pay2_apply (x0 : Vec Ideal S2000x256 .f32) (x1 : Vec Ideal S1x256 .f32) (x2 : Vec Ideal S2000x256 .f32)
    (x3 : Vec Ideal S256x256 .bf16) (x4 : Vec Ideal S1x256 .f32) (x5 : Vec Ideal S256x256 .bf16) (x6 : Vec Ideal S1x256 .f32)
    (p : Fin 2000) (q : Fin 256) :
    k2_pay2 (F := Ideal) x0 x1 x2 x3 x4 x5 x6 (ix2 p q)
      = Ideal.logistic ((((∑ k : Fin 256, (x0 (ix2 p k) + x1 (ix2 (0 : Fin 1) k)) * x3 (ix2 k q)) + x4 (ix2 (0 : Fin 1) q))
        + ∑ k : Fin 256, x2 (ix2 p k) * x5 (ix2 k q)) + x6 (ix2 (0 : Fin 1) q)) * (x0 (ix2 p q) + x1 (ix2 (0 : Fin 1) q))
        + (Ideal.ofBits .f32 0x3F800000#32 - Ideal.logistic ((((∑ k : Fin 256, (x0 (ix2 p k) + x1 (ix2 (0 : Fin 1) k)) * x3 (ix2 k q)) + x4 (ix2 (0 : Fin 1) q))
        + ∑ k : Fin 256, x2 (ix2 p k) * x5 (ix2 k q)) + x6 (ix2 (0 : Fin 1) q))) * x2 (ix2 p q) := by
  have hA : @matmul Ideal _ S2000x256 S256x256 S2000x256 .bf16 .bf16 dot_S2000x256_S256x256_S2000x256_1_0_0_1_n_n none (truncf .bf16 (k2_pay1 (F := Ideal) x0 x1) bitsLt_bf16_f32) (x3 : FVec Ideal S256x256 .bf16) (constant S2000x256 .f32 0x00000000#32) (ix2 p q)
      = ∑ k : Fin 256, (x0 (ix2 p k) + x1 (ix2 (0 : Fin 1) k)) * x3 (ix2 k q) := by
    refine (Cert.LibPlainDot.matmul_zero_apply (φ₁ := .bf16) (φ₂ := .bf16) dot_S2000x256_S256x256_S2000x256_1_0_0_1_n_n rfl rfl rfl rfl rfl rfl none _ x3 p q).trans ?_
    refine Finset.sum_congr rfl fun k _ => ?_
    exact congrArg (· * x3 (ix2 k q)) (pay1_apply x0 x1 p k)
  have hB : @matmul Ideal _ S2000x256 S256x256 S2000x256 .bf16 .bf16 dot_S2000x256_S256x256_S2000x256_1_0_0_1_n_n none (truncf .bf16 (x2 : FVec Ideal S2000x256 .f32) bitsLt_bf16_f32) (x5 : FVec Ideal S256x256 .bf16) (constant S2000x256 .f32 0x00000000#32) (ix2 p q)
      = ∑ k : Fin 256, x2 (ix2 p k) * x5 (ix2 k q) :=
    Cert.LibPlainDot.matmul_zero_apply (φ₁ := .bf16) (φ₂ := .bf16) dot_S2000x256_S256x256_S2000x256_1_0_0_1_n_n rfl rfl rfl rfl rfl rfl none _ x5 p q
  unfold k2_pay2
  simp only [shapeCast_self, addf_apply, mulf_apply, subf_apply, broadcast_apply, logistic_apply]
  rw [hA, hB, broadcastTo_row x4 broadcasts_S1x256_S2000x256 p q, broadcastTo_row x6 broadcasts_S1x256_S2000x256 p q,
    pay1_apply x0 x1 p q]
  rfl

/-- The new embedding's block, when the block holds rows n·2000 … of `agg` beside the whole bias row. -/
theorem blk8 (agg : Gcn.Nodes.Idx → EReal) (b : Gcn.Row.Idx → EReal)
    (x0 : Vec Ideal S2000x256 .f32) (x1 : Vec Ideal S1x256 .f32) (n : Nat)
    (hx0 : ∀ (j : S2000x256.Idx) (i : Gcn.Nodes.Idx), (i 0).val = n * 2000 + (j 0).val → (i 1).val = (j 1).val → x0 j = agg i)
    (hx1 : ∀ (j : S1x256.Idx) (i : Gcn.Row.Idx), (i 0).val = (j 0).val → (i 1).val = (j 1).val → x1 j = b i)
    (j : S2000x256.Idx) (i : Gcn.Nodes.Idx) (h0 : (i 0).val = n * 2000 + (j 0).val) (h1 : (i 1).val = (j 1).val) :
    k2_pay1 (F := Ideal) x0 x1 j = Gcn.addRow agg b i := by
  obtain ⟨p, q, rfl⟩ : ∃ (p : Fin 2000) (q : Fin 256), j = ix2 p q := ⟨j 0, j 1, eq_ix2 j⟩
  obtain ⟨r, s, rfl⟩ : ∃ (r : Fin 50000) (s : Fin 256), i = ix2 r s := ⟨i 0, i 1, eq_ix2 i⟩
  rw [pay1_apply]
  show _ = agg (ix2 r s) + b (ix2 (0 : Fin 1) s)
  rw [hx0 (ix2 p q) (ix2 r s) h0 h1, hx1 (ix2 (0 : Fin 1) q) (ix2 (0 : Fin 1) s) rfl h1]

/-- The mixed block, when the row blocks hold rows n·2000 … of `agg` and `prev` beside the whole weight tables and
    bias rows. -/
theorem blk7 (agg : Gcn.Nodes.Idx → EReal) (b : Gcn.Row.Idx → EReal) (prev : Gcn.Nodes.Idx → EReal)
    (gw : Gcn.Sq.Idx → EReal) (gwb : Gcn.Row.Idx → EReal) (gu : Gcn.Sq.Idx → EReal) (gub : Gcn.Row.Idx → EReal)
    (x0 : Vec Ideal S2000x256 .f32) (x1 : Vec Ideal S1x256 .f32) (x2 : Vec Ideal S2000x256 .f32)
    (x3 : Vec Ideal S256x256 .bf16) (x4 : Vec Ideal S1x256 .f32) (x5 : Vec Ideal S256x256 .bf16) (x6 : Vec Ideal S1x256 .f32) (n : Nat)
    (hx0 : ∀ (j : S2000x256.Idx) (i : Gcn.Nodes.Idx), (i 0).val = n * 2000 + (j 0).val → (i 1).val = (j 1).val → x0 j = agg i)
    (hx1 : ∀ (j : S1x256.Idx) (i : Gcn.Row.Idx), (i 0).val = (j 0).val → (i 1).val = (j 1).val → x1 j = b i)
    (hx2 : ∀ (j : S2000x256.Idx) (i : Gcn.Nodes.Idx), (i 0).val = n * 2000 + (j 0).val → (i 1).val = (j 1).val → x2 j = prev i)
    (hx3 : ∀ (j : S256x256.Idx) (i : Gcn.Sq.Idx), (i 0).val = (j 0).val → (i 1).val = (j 1).val → x3 j = gw i)
    (hx4 : ∀ (j : S1x256.Idx) (i : Gcn.Row.Idx), (i 0).val = (j 0).val → (i 1).val = (j 1).val → x4 j = gwb i)
    (hx5 : ∀ (j : S256x256.Idx) (i : Gcn.Sq.Idx), (i 0).val = (j 0).val → (i 1).val = (j 1).val → x5 j = gu i)
    (hx6 : ∀ (j : S1x256.Idx) (i : Gcn.Row.Idx), (i 0).val = (j 0).val → (i 1).val = (j 1).val → x6 j = gub i)
    (j : S2000x256.Idx) (i : Gcn.Nodes.Idx) (h0 : (i 0).val = n * 2000 + (j 0).val) (h1 : (i 1).val = (j 1).val) :
    k2_pay2 (F := Ideal) x0 x1 x2 x3 x4 x5 x6 j = Gcn.blend (Gcn.addRow agg b) prev gw gwb gu gub i := by
  obtain ⟨p, q, rfl⟩ : ∃ (p : Fin 2000) (q : Fin 256), j = ix2 p q := ⟨j 0, j 1, eq_ix2 j⟩
  obtain ⟨r, s, rfl⟩ : ∃ (r : Fin 50000) (s : Fin 256), i = ix2 r s := ⟨i 0, i 1, eq_ix2 i⟩
  rw [pay2_apply]
  have hS1 : (∑ k : Fin 256, (x0 (ix2 p k) + x1 (ix2 (0 : Fin 1) k)) * x3 (ix2 k q))
      = Gcn.mm (Gcn.addRow agg b) gw (ix2 r s) := by
    show _ = ∑ k : Fin 256, (agg (ix2 r k) + b (ix2 (0 : Fin 1) k)) * gw (ix2 k s)
    refine Finset.sum_congr rfl fun k _ => ?_
    rw [hx0 (ix2 p k) (ix2 r k) h0 rfl, hx1 (ix2 (0 : Fin 1) k) (ix2 (0 : Fin 1) k) rfl rfl, hx3 (ix2 k q) (ix2 k s) rfl h1]
  have hS2 : (∑ k : Fin 256, x2 (ix2 p k) * x5 (ix2 k q)) = Gcn.mm prev gu (ix2 r s) := by
    show _ = ∑ k : Fin 256, prev (ix2 r k) * gu (ix2 k s)
    refine Finset.sum_congr rfl fun k _ => ?_
    rw [hx2 (ix2 p k) (ix2 r k) h0 rfl, hx5 (ix2 k q) (ix2 k s) rfl h1]
  rw [hS1, hS2, hx0 (ix2 p q) (ix2 r s) h0 h1, hx1 (ix2 (0 : Fin 1) q) (ix2 (0 : Fin 1) s) rfl h1,
    hx2 (ix2 p q) (ix2 r s) h0 h1, hx4 (ix2 (0 : Fin 1) q) (ix2 (0 : Fin 1) s) rfl h1,
    hx6 (ix2 (0 : Fin 1) q) (ix2 (0 : Fin 1) s) rfl h1]
  rfl

variable (V : (c : Dev nD) → (b : Ref sig .tc) → Buf (Elt Ideal) ((c : Thread nD τ).loc b))

/-- The block indices of the nine windows at point t: the four row blocks move with t, the tables and bias rows stay. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0
    ∧ win2_8.index t (0 : Fin 2) = t.val
    ∧ win2_8.index t (1 : Fin 2) = 0 :=
  (by decide +kernel : ∀ t : Fin grid2.N, _)

/-- Point t's block of the second aggregation is its rows t·2000 …. -/
theorem rd0 (c : Dev nD) (t : Fin cfg2.N) (j : S2000x256.Idx) (i : Gcn.Nodes.Idx)
    (h0 : (i 0).val = t.val * 2000 + (j 0).val) (h1 : (i 1).val = (j 1).val) :
    iblk2 V c 0 t j = V c main_v60 i := by
  have e := idx_facts t
  show V c main_v60 (((cfg2.win 0).blk t).view.emb j) = V c main_v60 i
  refine congrArg (V c main_v60) (funext fun a => Fin.ext ?_)
  match a with
  | ⟨0, _⟩ => show win2_0.index t (0 : Fin 2) * 2000 + 1 * (j 0).val = (i 0).val; omega
  | ⟨1, _⟩ => show win2_0.index t (1 : Fin 2) * 256 + 1 * (j 1).val = (i 1).val; omega

/-- Point t's block of the embedding's bias row is the whole row. -/
theorem rd1 (c : Dev nD) (t : Fin cfg2.N) (j : S1x256.Idx) (i : Gcn.Row.Idx)
    (h0 : (i 0).val = (j 0).val) (h1 : (i 1).val = (j 1).val) :
    iblk2 V c 1 t j = V c main_v61 i := by
  have e := idx_facts t
  show V c main_v61 (((cfg2.win 1).blk t).view.emb j) = V c main_v61 i
  refine congrArg (V c main_v61) (funext fun a => Fin.ext ?_)
  match a with
  | ⟨0, _⟩ => show win2_1.index t (0 : Fin 2) * 1 + 1 * (j 0).val = (i 0).val; omega
  | ⟨1, _⟩ => show win2_1.index t (1 : Fin 2) * 256 + 1 * (j 1).val = (i 1).val; omega

/-- Point t's block of the previous embedding is its rows t·2000 …. -/
theorem rd2 (c : Dev nD) (t : Fin cfg2.N) (j : S2000x256.Idx) (i : Gcn.Nodes.Idx)
    (h0 : (i 0).val = t.val * 2000 + (j 0).val) (h1 : (i 1).val = (j 1).val) :
    iblk2 V c 2 t j = V c main_arg2 i := by
  have e := idx_facts t
  show V c main_arg2 (((cfg2.win 2).blk t).view.emb j) = V c main_arg2 i
  refine congrArg (V c main_arg2) (funext fun a => Fin.ext ?_)
  match a with
  | ⟨0, _⟩ => show win2_2.index t (0 : Fin 2) * 2000 + 1 * (j 0).val = (i 0).val; omega
  | ⟨1, _⟩ => show win2_2.index t (1 : Fin 2) * 256 + 1 * (j 1).val = (i 1).val; omega

/-- Point t's block of the first gate weights is the whole table. -/
theorem rd3 (c : Dev nD) (t : Fin cfg2.N) (j : S256x256.Idx) (i : Gcn.Sq.Idx)
    (h0 : (i 0).val = (j 0).val) (h1 : (i 1).val = (j 1).val) :
    iblk2 V c 3 t j = V c main_v62 i := by
  have e := idx_facts t
  show V c main_v62 (((cfg2.win 3).blk t).view.emb j) = V c main_v62 i
  refine congrArg (V c main_v62) (funext fun a => Fin.ext ?_)
  match a with
  | ⟨0, _⟩ => show win2_3.index t (0 : Fin 2) * 256 + 1 * (j 0).val = (i 0).val; omega
  | ⟨1, _⟩ => show win2_3.index t (1 : Fin 2) * 256 + 1 * (j 1).val = (i 1).val; omega

/-- Point t's block of the first gate bias is the whole row. -/
theorem rd4 (c : Dev nD) (t : Fin cfg2.N) (j : S1x256.Idx) (i : Gcn.Row.Idx)
    (h0 : (i 0).val = (j 0).val) (h1 : (i 1).val = (j 1).val) :
    iblk2 V c 4 t j = V c main_v64 i := by
  have e := idx_facts t
  show V c main_v64 (((cfg2.win 4).blk t).view.emb j) = V c main_v64 i
  refine congrArg (V c main_v64) (funext fun a => Fin.ext ?_)
  match a with
  | ⟨0, _⟩ => show win2_4.index t (0 : Fin 2) * 1 + 1 * (j 0).val = (i 0).val; omega
  | ⟨1, _⟩ => show win2_4.index t (1 : Fin 2) * 256 + 1 * (j 1).val = (i 1).val; omega

/-- Point t's block of the second gate weights is the whole table. -/
theorem rd5 (c : Dev nD) (t : Fin cfg2.N) (j : S256x256.Idx) (i : Gcn.Sq.Idx)
    (h0 : (i 0).val = (j 0).val) (h1 : (i 1).val = (j 1).val) :
    iblk2 V c 5 t j = V c main_v63 i := by
  have e := idx_facts t
  show V c main_v63 (((cfg2.win 5).blk t).view.emb j) = V c main_v63 i
  refine congrArg (V c main_v63) (funext fun a => Fin.ext ?_)
  match a with
  | ⟨0, _⟩ => show win2_5.index t (0 : Fin 2) * 256 + 1 * (j 0).val = (i 0).val; omega
  | ⟨1, _⟩ => show win2_5.index t (1 : Fin 2) * 256 + 1 * (j 1).val = (i 1).val; omega

/-- Point t's block of the second gate bias is the whole row. -/
theorem rd6 (c : Dev nD) (t : Fin cfg2.N) (j : S1x256.Idx) (i : Gcn.Row.Idx)
    (h0 : (i 0).val = (j 0).val) (h1 : (i 1).val = (j 1).val) :
    iblk2 V c 6 t j = V c main_v65 i := by
  have e := idx_facts t
  show V c main_v65 (((cfg2.win 6).blk t).view.emb j) = V c main_v65 i
  refine congrArg (V c main_v65) (funext fun a => Fin.ext ?_)
  match a with
  | ⟨0, _⟩ => show win2_6.index t (0 : Fin 2) * 1 + 1 * (j 0).val = (i 0).val; omega
  | ⟨1, _⟩ => show win2_6.index t (1 : Fin 2) * 256 + 1 * (j 1).val = (i 1).val; omega

/-- The new embedding of the tables the region read. -/
abbrev H (c : Dev nD) : Gcn.Nodes.Idx → EReal := Gcn.addRow (V c main_v60) (V c main_v61)

/-- The gated mix of the tables the region read. -/
abbrev M (c : Dev nD) : Gcn.Nodes.Idx → EReal :=
  Gcn.blend (Gcn.addRow (V c main_v60) (V c main_v61)) (V c main_arg2) (V c main_v62) (V c main_v64) (V c main_v63) (V c main_v65)

/-- What point t writes back to the first result is block t of the mix. -/
theorem flushed7 (c : Dev nD) (t : Fin cfg2.N) :
    (dat2 (F := Ideal) V c).flushed 7 t = ((cfg2.win 7).blk t).view.read (Elt Ideal) (M V c) := by
  show (cfg2.win 7).cut (grid2.coords t) ((dat2 (F := Ideal) V c).after 7 t) = _
  rw [after2_7]
  unfold out2_7
  rw [View.canon_unit_zero hz]
  simp only [View.ld_unit_zero (S := S2000x256) hz, View.ld_unit_zero (S := S1x256) hz, View.ld_unit_zero (S := S256x256) hz]
  have e := idx_facts t
  funext j
  refine blk7 (V c main_v60) (V c main_v61) (V c main_arg2) (V c main_v62) (V c main_v64) (V c main_v63) (V c main_v65)
    (iblk2 V c 0 t) (iblk2 V c 1 t) (iblk2 V c 2 t) (iblk2 V c 3 t) (iblk2 V c 4 t) (iblk2 V c 5 t) (iblk2 V c 6 t) t.val
    (rd0 V c t) (rd1 V c t) (rd2 V c t) (rd3 V c t) (rd4 V c t) (rd5 V c t) (rd6 V c t) j (((cfg2.win 7).blk t).view.emb j) ?_ ?_
  · show win2_7.index t (0 : Fin 2) * 2000 + 1 * (j 0).val = t.val * 2000 + (j 0).val; omega
  · show win2_7.index t (1 : Fin 2) * 256 + 1 * (j 1).val = (j 1).val; omega

/-- What point t writes back to the second result is block t of the new embedding. -/
theorem flushed8 (c : Dev nD) (t : Fin cfg2.N) :
    (dat2 (F := Ideal) V c).flushed 8 t = ((cfg2.win 8).blk t).view.read (Elt Ideal) (H V c) := by
  show (cfg2.win 8).cut (grid2.coords t) ((dat2 (F := Ideal) V c).after 8 t) = _
  rw [after2_8]
  unfold out2_8
  rw [View.canon_unit_zero hz]
  simp only [View.ld_unit_zero (S := S2000x256) hz, View.ld_unit_zero (S := S1x256) hz]
  have e := idx_facts t
  funext j
  refine blk8 (V c main_v60) (V c main_v61) (iblk2 V c 0 t) (iblk2 V c 1 t) t.val (rd0 V c t) (rd1 V c t) j
    (((cfg2.win 8).blk t).view.emb j) ?_ ?_
  · show win2_8.index t (0 : Fin 2) * 2000 + 1 * (j 0).val = t.val * 2000 + (j 0).val; omega
  · show win2_8.index t (1 : Fin 2) * 256 + 1 * (j 1).val = (j 1).val; omega

/-- An index of the first result lies in point t's block iff each coordinate lies in the block's range. -/
theorem mem_blk7 (t : Fin cfg2.N) (i : S50000x256.Idx) :
    i ∈ ((cfg2.win 7).blk t).view.set ↔ ∀ a : Fin 2, win2_7.index t a * S2000x256.size a ≤ (i a).val
      ∧ (i a).val < win2_7.index t a * S2000x256.size a + S2000x256.size a := by
  show i ∈ ((View.whole main_v66_0).slice (win2_7.rect t)).set ↔ _
  rw [View.set_slice_whole, Rect.mem_set_unit]
  exact Iff.rfl

/-- The same for the second result. -/
theorem mem_blk8 (t : Fin cfg2.N) (i : S50000x256.Idx) :
    i ∈ ((cfg2.win 8).blk t).view.set ↔ ∀ a : Fin 2, win2_8.index t a * S2000x256.size a ≤ (i a).val
      ∧ (i a).val < win2_8.index t a * S2000x256.size a + S2000x256.size a := by
  show i ∈ ((View.whole main_v66_1).slice (win2_8.rect t)).set ↔ _
  rw [View.set_slice_whole, Rect.mem_set_unit]
  exact Iff.rfl

/-- Every entry of the first result is written: row r by point r / 2000. -/
theorem cover7 (i : S50000x256.Idx) :
    ∃ t : Fin cfg2.N, (cfg2.win 7).flush t = true ∧ i ∈ ((cfg2.win 7).blk t).view.set := by
  have hi0 : (i 0).val < 50000 := (i 0).isLt
  have hi1 : (i 1).val < 256 := (i 1).isLt
  have ht : (i 0).val / 2000 < 25 := by omega
  refine ⟨⟨(i 0).val / 2000, ht⟩, flush2_7 _, ?_⟩
  rw [mem_blk7]
  have e := idx_facts ⟨(i 0).val / 2000, ht⟩
  have e14 : win2_7.index ⟨(i 0).val / 2000, ht⟩ (0 : Fin 2) = (i 0).val / 2000 := e.2.2.2.2.2.2.2.2.2.2.2.2.2.2.1
  have e15 : win2_7.index ⟨(i 0).val / 2000, ht⟩ (1 : Fin 2) = 0 := e.2.2.2.2.2.2.2.2.2.2.2.2.2.2.2.1
  intro a
  match a with
  | ⟨0, _⟩ =>
    show win2_7.index ⟨(i 0).val / 2000, ht⟩ (0 : Fin 2) * 2000 ≤ (i 0).val
      ∧ (i 0).val < win2_7.index ⟨(i 0).val / 2000, ht⟩ (0 : Fin 2) * 2000 + 2000
    rw [e14]; omega
  | ⟨1, _⟩ =>
    show win2_7.index ⟨(i 0).val / 2000, ht⟩ (1 : Fin 2) * 256 ≤ (i 1).val
      ∧ (i 1).val < win2_7.index ⟨(i 0).val / 2000, ht⟩ (1 : Fin 2) * 256 + 256
    rw [e15]; omega

/-- Every entry of the second result is written: row r by point r / 2000. -/
theorem cover8 (i : S50000x256.Idx) :
    ∃ t : Fin cfg2.N, (cfg2.win 8).flush t = true ∧ i ∈ ((cfg2.win 8).blk t).view.set := by
  have hi0 : (i 0).val < 50000 := (i 0).isLt
  have hi1 : (i 1).val < 256 := (i 1).isLt
  have ht : (i 0).val / 2000 < 25 := by omega
  refine ⟨⟨(i 0).val / 2000, ht⟩, flush2_8 _, ?_⟩
  rw [mem_blk8]
  have e := idx_facts ⟨(i 0).val / 2000, ht⟩
  have e16 : win2_8.index ⟨(i 0).val / 2000, ht⟩ (0 : Fin 2) = (i 0).val / 2000 := e.2.2.2.2.2.2.2.2.2.2.2.2.2.2.2.2.1
  have e17 : win2_8.index ⟨(i 0).val / 2000, ht⟩ (1 : Fin 2) = 0 := e.2.2.2.2.2.2.2.2.2.2.2.2.2.2.2.2.2
  intro a
  match a with
  | ⟨0, _⟩ =>
    show win2_8.index ⟨(i 0).val / 2000, ht⟩ (0 : Fin 2) * 2000 ≤ (i 0).val
      ∧ (i 0).val < win2_8.index ⟨(i 0).val / 2000, ht⟩ (0 : Fin 2) * 2000 + 2000
    rw [e16]; omega
  | ⟨1, _⟩ =>
    show win2_8.index ⟨(i 0).val / 2000, ht⟩ (1 : Fin 2) * 256 ≤ (i 1).val
      ∧ (i 1).val < win2_8.index ⟨(i 0).val / 2000, ht⟩ (1 : Fin 2) * 256 + 256
    rw [e17]; omega

/-- The first result array after the region: the gated mix. -/
theorem final7 (c : Dev nD) : (dat2 (F := Ideal) V c).arrAt 7 cfg2.N = M V c :=
  (dat2 (F := Ideal) V c).arrAt_eq_of_cover 7 _ (fun t _ => flushed7 V c t) cover7

/-- The second result array after the region: the new embedding. -/
theorem final8 (c : Dev nD) : (dat2 (F := Ideal) V c).arrAt 8 cfg2.N = H V c :=
  (dat2 (F := Ideal) V c).arrAt_eq_of_cover 8 _ (fun t _ => flushed8 V c t) cover8

end Cert.KernelIdeal.Closed2

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.Bridge.lean ====
/-
  The reference's stages are the formulas of the specification.

  The reference computes each layer on whole tables: a matrix product (the host's dot_general, at the ideal values the
  plain sum over k), a bias vector laid out as a one-row table and then repeated down the rows, a maximum with a table
  of zeros, and for the gate the logistic function spelt as 1 / (1 + exp (-x)). Read at one entry (r, q) each of these
  is the corresponding formula of `Cert.Gcn`:

    * the product at (r, q) is the sum over k of left (r, k) * right (k, q);
    * the repeated bias at (r, q) is the one-row table at (0, q);
    * 1 / (1 + exp (-x)), with the word 0x3F800000 denoting the real number one, is the logistic function of x.

  A bias vector reshaped to one row (as the other program lays it out) is the same one-row table as the reference's
  broadcast of it along the column axis. The aggregated table that enters a layer is kept as a variable throughout:
  nothing here looks inside the gather and scatter-add that produce it.
-/
import proofs.«182096_j90486370992781_1_alg».proof.Proof.RefRead
import proofs.«182096_j90486370992781_1_alg».proof.Proof.Spec
import proofs.«182096_j90486370992781_1_alg».proof.Proof.LibPlainDot
import proofs.«182096_j90486370992781_1_alg».proof.Proof.LibReshapeAsBroadcast
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.Gcn.Bridge

open Cert.ReferenceIdeal Cert.ReferenceIdeal.Gen Cert.ReferenceIdeal.ReadP
open Idealize.ShloMosaic Idealize.ShloMosaic.ValueIdx

/-- The host's matrix product of a node table with a weight table is `mm`. -/
theorem dot_eq_mm (x : FVec Ideal S50000x256 .f32) (w : FVec Ideal S256x256 .f32) :
    Host.dotGeneral dot_S50000x256_S256x256_S50000x256_1_0_0_1_n_n none x w = Gcn.mm x w := by
  funext i
  obtain ⟨r, s, rfl⟩ : ∃ (r : Fin 50000) (s : Fin 256), i = ix2 r s := ⟨i 0, i 1, eq_ix2 i⟩
  simp only [Host.dotGeneral]
  exact Cert.LibPlainDot.dotGeneral_apply dot_S50000x256_S256x256_S50000x256_1_0_0_1_n_n rfl rfl rfl rfl rfl rfl none _ x w r s

/-- A bias vector reshaped to a one-row table is the reference's broadcast of it along the column axis. -/
theorem row_eq (b : FVec Ideal S256 .f32) (h : S256.ShapeCasts S1x256) :
    shapeCast S1x256 b h = broadcastInDim S1x256 ![1] bcast_S256_S1x256_1 b :=
  Idealize.ShloMosaic.ReshapeAsBroadcast.shapeCast_row 256 b h bcast_S256_S1x256_1

/-- A one-row table repeated down the 50000 rows, read at an entry: the row at that entry's column. -/
theorem rows_apply (y : FVec Ideal S1x256 .f32) (i : S50000x256.Idx) :
    broadcastInDim S50000x256 ![0, 1] bcast_S1x256_S50000x256_0_1 y i = y (ix2 (0 : Fin 1) (i 1)) :=
  broadcastInDim_apply _ bcast_S1x256_S50000x256_0_1 y i (ix2 (0 : Fin 1) (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

/-- A table plus a one-row table repeated down the rows is `addRow`. -/
theorem add_rows (X : FVec Ideal S50000x256 .f32) (y : FVec Ideal S1x256 .f32) :
    addf X (broadcastInDim S50000x256 ![0, 1] bcast_S1x256_S50000x256_0_1 y) = Gcn.addRow X y := by
  funext i
  show X i + broadcastInDim S50000x256 ![0, 1] bcast_S1x256_S50000x256_0_1 y i = X i + y (ix2 (0 : Fin 1) (i 1))
  rw [rows_apply]

/-- The table of zeros the reference's relu takes its maximum against, at an entry. -/
theorem zeros_apply (i : S50000x256.Idx) :
    val_main_call1_v0 (F := Ideal) i = Ideal.ofBits .f32 0x00000000#32 := by
  rw [val_main_call1_v0_apply]; rfl

/-- Bias added, then the maximum with the table of zeros: `relu`. -/
theorem relu_eq (X : FVec Ideal S50000x256 .f32) (y : FVec Ideal S1x256 .f32) :
    maximumf (addf X (broadcastInDim S50000x256 ![0, 1] bcast_S1x256_S50000x256_0_1 y)) (val_main_call1_v0 (F := Ideal))
      = Gcn.relu X y := by
  rw [add_rows]
  funext i
  show max (Gcn.addRow X y i) (val_main_call1_v0 (F := Ideal) i) = max (Gcn.addRow X y i) (Ideal.ofBits .f32 0x00000000#32)
  rw [zeros_apply]

/-- The first layer's product. -/
theorem layer0 (a0 : FVec Ideal S50000x256 .f32) (a3 : FVec Ideal S256x256 .f32) :
    Gcn.mm a0 a3 = val_main_v30 (F := Ideal) a0 a3 := by
  unfold val_main_v30
  exact (dot_eq_mm a0 a3).symm

/-- The second layer's product of the clipped, biased first aggregation. -/
theorem layer1 (a0 : FVec Ideal S50000x256 .f32) (a1 : (⟨S2x800000, .i32⟩ : BufTy).Contents (Elt Ideal))
    (a3 : FVec Ideal S256x256 .f32) (a4 : FVec Ideal S256 .f32) (a5 : FVec Ideal S256x256 .f32) (h : S256.ShapeCasts S1x256) :
    Gcn.mm (Gcn.relu (val_main_v43 (F := Ideal) a0 a1 a3) (shapeCast S1x256 a4 h)) a5
      = val_main_v48 (F := Ideal) a0 a1 a3 a4 a5 := by
  unfold val_main_v48 val_main_v47 val_main_v46 val_main_v45 val_main_v44
  generalize val_main_v43 (F := Ideal) a0 a1 a3 = X
  rw [dot_eq_mm, relu_eq, row_eq a4 h]

/-- The new embedding: the second aggregation plus its bias row. -/
theorem embed (a0 : FVec Ideal S50000x256 .f32) (a1 : (⟨S2x800000, .i32⟩ : BufTy).Contents (Elt Ideal))
    (a3 : FVec Ideal S256x256 .f32) (a4 : FVec Ideal S256 .f32) (a5 : FVec Ideal S256x256 .f32) (a6 : FVec Ideal S256 .f32)
    (h : S256.ShapeCasts S1x256) :
    Gcn.addRow (val_main_v61 (F := Ideal) a0 a1 a3 a4 a5) (shapeCast S1x256 a6 h)
      = val_main_v64 (F := Ideal) a0 a1 a3 a4 a5 a6 := by
  unfold val_main_v64 val_main_v63 val_main_v62
  generalize val_main_v61 (F := Ideal) a0 a1 a3 a4 a5 = Y
  rw [add_rows, row_eq a6 h]

/-- The host's 1 / (1 + exp (-x)), the ones written as the word 0x3F800000, is the logistic function. -/
theorem logistic_eq (x : EReal) :
    Ideal.div (Ideal.ofBits .f32 0x3F800000#32) (Ideal.ofBits .f32 0x3F800000#32 + Ideal.exp (-x)) = Ideal.logistic x := by
  have h1 : Ideal.ofBits .f32 0x3F800000#32 = 1 := IdealRules.sign_bit.ideal_onePat .f32
  rw [h1]; rfl

/-- The gated mix of the new embedding `H` with the previous one. -/
theorem gate (H : FVec Ideal S50000x256 .f32) (a2 : FVec Ideal S50000x256 .f32) (a7 : FVec Ideal S256x256 .f32)
    (a8 : FVec Ideal S256 .f32) (a9 : FVec Ideal S256x256 .f32) (a10 : FVec Ideal S256 .f32)
    (h8 h10 : S256.ShapeCasts S1x256) :
    Gcn.blend H a2 a7 (shapeCast S1x256 a8 h8) a9 (shapeCast S1x256 a10 h10)
      = addf (mulf (Host.divf (val_main_v78 (F := Ideal))
            (addf (val_main_v76 (F := Ideal)) (Host.exp (Host.negf
              (addf (addf (addf (Host.dotGeneral dot_S50000x256_S256x256_S50000x256_1_0_0_1_n_n none H a7) (val_main_v67 (F := Ideal) a8))
                (val_main_v69 (F := Ideal) a2 a9)) (val_main_v72 (F := Ideal) a10)))))) H)
          (mulf (subf (val_main_v81 (F := Ideal)) (Host.divf (val_main_v78 (F := Ideal))
            (addf (val_main_v76 (F := Ideal)) (Host.exp (Host.negf
              (addf (addf (addf (Host.dotGeneral dot_S50000x256_S256x256_S50000x256_1_0_0_1_n_n none H a7) (val_main_v67 (F := Ideal) a8))
                (val_main_v69 (F := Ideal) a2 a9)) (val_main_v72 (F := Ideal) a10))))))) a2) := by
  unfold val_main_v67 val_main_v66 val_main_v72 val_main_v71 val_main_v69
  rw [dot_eq_mm, dot_eq_mm, add_rows, add_rows, row_eq a8 h8, row_eq a10 h10]
  funext i
  have h1 : val_main_v78 (F := Ideal) i = Ideal.ofBits .f32 0x3F800000#32 := by rw [val_main_v78_apply]; rfl
  have h2 : val_main_v76 (F := Ideal) i = Ideal.ofBits .f32 0x3F800000#32 := by rw [val_main_v76_apply]; rfl
  have h3 : val_main_v81 (F := Ideal) i = Ideal.ofBits .f32 0x3F800000#32 := by rw [val_main_v81_apply]; rfl
  show Ideal.logistic (Gcn.logits H a2 a7 (broadcastInDim S1x256 ![1] bcast_S256_S1x256_1 a8) a9 (broadcastInDim S1x256 ![1] bcast_S256_S1x256_1 a10) i) * H i + (Ideal.ofBits .f32 0x3F800000#32 - Ideal.logistic (Gcn.logits H a2 a7 (broadcastInDim S1x256 ![1] bcast_S256_S1x256_1 a8) a9 (broadcastInDim S1x256 ![1] bcast_S256_S1x256_1 a10) i)) * a2 i
    = Ideal.div (val_main_v78 (F := Ideal) i) (val_main_v76 (F := Ideal) i + Ideal.exp (-(Gcn.logits H a2 a7 (broadcastInDim S1x256 ![1] bcast_S256_S1x256_1 a8) a9 (broadcastInDim S1x256 ![1] bcast_S256_S1x256_1 a10) i))) * H i
      + (val_main_v81 (F := Ideal) i
          - Ideal.div (val_main_v78 (F := Ideal) i) (val_main_v76 (F := Ideal) i + Ideal.exp (-(Gcn.logits H a2 a7 (broadcastInDim S1x256 ![1] bcast_S256_S1x256_1 a8) a9 (broadcastInDim S1x256 ![1] bcast_S256_S1x256_1 a10) i)))) * a2 i
  rw [h1, h2, h3, logistic_eq]

/-- The gated mix is the reference's first result. -/
theorem result (a0 : FVec Ideal S50000x256 .f32) (a1 : (⟨S2x800000, .i32⟩ : BufTy).Contents (Elt Ideal))
    (a2 : FVec Ideal S50000x256 .f32) (a3 : FVec Ideal S256x256 .f32) (a4 : FVec Ideal S256 .f32) (a5 : FVec Ideal S256x256 .f32)
    (a6 : FVec Ideal S256 .f32) (a7 : FVec Ideal S256x256 .f32) (a8 : FVec Ideal S256 .f32) (a9 : FVec Ideal S256x256 .f32)
    (a10 : FVec Ideal S256 .f32) (h8 h10 : S256.ShapeCasts S1x256) :
    Gcn.blend (val_main_v64 (F := Ideal) a0 a1 a3 a4 a5 a6) a2 a7 (shapeCast S1x256 a8 h8) a9 (shapeCast S1x256 a10 h10)
      = val_main_v84 (F := Ideal) a0 a1 a2 a3 a4 a5 a6 a7 a8 a9 a10 := by
  unfold val_main_v84 val_main_v83 val_main_v82 val_main_v80 val_main_v79 val_main_v77 val_main_v75 val_main_v74 val_main_v73
    val_main_v70 val_main_v68 val_main_v65
  generalize val_main_v64 (F := Ideal) a0 a1 a3 a4 a5 a6 = H
  exact gate H a2 a7 a8 a9 a10 h8 h10

end Cert.Gcn.Bridge

end
-- ==== Proof.Stages.lean ====
/-
  The kernel program's buffers, boundary by boundary, are the reference's stages.

  Both programs compute the edges' source and destination indices and their normalisation weights from the edge list
  with the same host operations, so those buffers are the reference's own stages of the launch arrays (Weights). After that the
  programs alternate: a dense step (in one program a kernel region over row blocks, in the other host operations on whole
  tables), then the same aggregation (gather the source rows, scale each by its edge's weight, add into the destination
  rows). The dense steps agree by the region's closed form and the specification's formulas; the aggregation is the same
  operations applied to equal tables, and is never opened. At the last boundary the two result arrays are the reference's
  two results.
-/
import proofs.«182096_j90486370992781_1_alg».proof.Proof.Gen.KernelIdeal.Frame
import proofs.«182096_j90486370992781_1_alg».proof.Proof.RefRead
import proofs.«182096_j90486370992781_1_alg».proof.Proof.Carry
import proofs.«182096_j90486370992781_1_alg».proof.Proof.Weights
import proofs.«182096_j90486370992781_1_alg».proof.Proof.Region0
import proofs.«182096_j90486370992781_1_alg».proof.Proof.Region1
import proofs.«182096_j90486370992781_1_alg».proof.Proof.Region2
import proofs.«182096_j90486370992781_1_alg».proof.Proof.Bridge
import Idealize.ShloMosaic.Lib.StableHlo.Run

set_option maxRecDepth 16384

noncomputable section

namespace Cert.KernelIdeal.Stages

open Cert.KernelIdeal Cert.KernelIdeal.Gen Cert.KernelIdeal.Carry Cert.KernelIdeal.Weights Cert.ReferenceIdeal.ReadP
open Idealize.ShloMosaic Idealize.ShloMosaic.TcCoe Idealize.SL.Sem Idealize.ShloMosaic.StableHlo

/-- Read one stretch's results with the contents at the earlier boundary kept as a variable, so that only this
    stretch's operations are opened; then put the earlier boundary back. -/
macro "read_stretch " prev:term : tactic =>
  `(tactic| (generalize hW : $prev = Wa; after_results_simp; subst hW))

variable (m : (ℓ : Loc nD τ sig) → Buf (Elt Ideal) ℓ) (ρ : Dev nD → PrngReg) (c : Dev nD)

/-- The arguments' launch contents. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)

/-! ## What the first region is handed -/

set_option maxHeartbeats 4000000 in
/-- The node features handed to the first region (a change of float format: the identity on the values). -/
theorem feat3 : W3 m ρ c (Proc.devRef .tc main_v31) = x0 m c := by
  show StableHlo.after hostOps0_2 (W2 m ρ c) (Proc.devRef .tc main_v31) = _
  read_stretch (W2 m ρ c)
  rw [launch2 m ρ c main_arg0 (by decide) (by decide)]
  rfl

set_option maxHeartbeats 4000000 in
/-- The first layer's weights handed to the first region. -/
theorem wt3 : W3 m ρ c (Proc.devRef .tc main_v32) = x3 m c := by
  show StableHlo.after hostOps0_2 (W2 m ρ c) (Proc.devRef .tc main_v32) = _
  read_stretch (W2 m ρ c)
  rw [launch2 m ρ c main_arg3 (by decide) (by decide)]
  rfl

/-! ## The first layer -/

/-- The first region's result is the reference's first matrix product. -/
theorem prod4 : W4 m ρ c (Proc.devRef .tc main_v33) = val_main_v30 (F := Ideal) (x0 m c) (x3 m c) := by
  refine (W4_arr m ρ c 2).trans ?_
  rw [Closed0.final (V3 m ρ) c]
  show Gcn.mm (W3 m ρ c (Proc.devRef .tc main_v31)) (W3 m ρ c (Proc.devRef .tc main_v32)) = _
  rw [feat3, wt3]
  exact Cert.Gcn.Bridge.layer0 _ _

theorem src4 : W4 m ρ c (Proc.devRef .tc main_v3) = val_main_v3 (F := Ideal) (x1 m c) :=
  (c34 m ρ c main_v3 (by decide)).trans (src3 m ρ c)
theorem dst4 : W4 m ρ c (Proc.devRef .tc main_v6) = val_main_v6 (F := Ideal) (x1 m c) :=
  (c34 m ρ c main_v6 (by decide)).trans (dst3 m ρ c)
theorem norm4 : W4 m ρ c (Proc.devRef .tc main_v30) = val_main_v38 (F := Ideal) (x1 m c) :=
  (c34 m ρ c main_v30 (by decide)).trans (norm3 m ρ c)

set_option maxHeartbeats 4000000 in
/-- The first aggregation: the same gather, scaling and scatter-add, of equal tables. -/
theorem agg5 : W5 m ρ c (Proc.devRef .tc main_v45) = val_main_v43 (F := Ideal) (x0 m c) (x1 m c) (x3 m c) := by
  show StableHlo.after hostOps1 (W4 m ρ c) (Proc.devRef .tc main_v45) = _
  read_stretch (W4 m ρ c)
  rw [prod4, src4, dst4, norm4]
  rfl

set_option maxHeartbeats 4000000 in
/-- The first bias, laid out as a one-row table. -/
theorem bias5 : W5 m ρ c (Proc.devRef .tc main_v46) = shapeCast S1x256 (x4 m c) shapeCasts_S256_S1x256 := by
  show StableHlo.after hostOps1 (W4 m ρ c) (Proc.devRef .tc main_v46) = _
  read_stretch (W4 m ρ c)
  rw [launch4 m ρ c main_arg4 (by decide) (by decide) (by decide) (by decide)]
  rfl

set_option maxHeartbeats 4000000 in
/-- The second layer's weights handed to the second region. -/
theorem wt5 : W5 m ρ c (Proc.devRef .tc main_v47) = x5 m c := by
  show StableHlo.after hostOps1 (W4 m ρ c) (Proc.devRef .tc main_v47) = _
  read_stretch (W4 m ρ c)
  rw [launch4 m ρ c main_arg5 (by decide) (by decide) (by decide) (by decide)]
  rfl

theorem src5 : W5 m ρ c (Proc.devRef .tc main_v3) = val_main_v3 (F := Ideal) (x1 m c) :=
  (c45 m ρ c main_v3 (by decide)).trans (src4 m ρ c)
theorem dst5 : W5 m ρ c (Proc.devRef .tc main_v6) = val_main_v6 (F := Ideal) (x1 m c) :=
  (c45 m ρ c main_v6 (by decide)).trans (dst4 m ρ c)
theorem norm5 : W5 m ρ c (Proc.devRef .tc main_v30) = val_main_v38 (F := Ideal) (x1 m c) :=
  (c45 m ρ c main_v30 (by decide)).trans (norm4 m ρ c)

/-! ## The second layer -/

/-- The second region's result is the reference's second matrix product. -/
theorem prod6 : W6 m ρ c (Proc.devRef .tc main_v48)
    = val_main_v48 (F := Ideal) (x0 m c) (x1 m c) (x3 m c) (x4 m c) (x5 m c) := by
  refine (W6_arr m ρ c 3).trans ?_
  rw [Closed1.final (V5 m ρ) c]
  show Gcn.mm (Gcn.relu (W5 m ρ c (Proc.devRef .tc main_v45)) (W5 m ρ c (Proc.devRef .tc main_v46)))
    (W5 m ρ c (Proc.devRef .tc main_v47)) = _
  rw [agg5, bias5, wt5]
  exact Cert.Gcn.Bridge.layer1 _ _ _ _ _ _

theorem src6 : W6 m ρ c (Proc.devRef .tc main_v3) = val_main_v3 (F := Ideal) (x1 m c) :=
  (c56 m ρ c main_v3 (by decide)).trans (src5 m ρ c)
theorem dst6 : W6 m ρ c (Proc.devRef .tc main_v6) = val_main_v6 (F := Ideal) (x1 m c) :=
  (c56 m ρ c main_v6 (by decide)).trans (dst5 m ρ c)
theorem norm6 : W6 m ρ c (Proc.devRef .tc main_v30) = val_main_v38 (F := Ideal) (x1 m c) :=
  (c56 m ρ c main_v30 (by decide)).trans (norm5 m ρ c)

set_option maxHeartbeats 4000000 in
/-- The second aggregation. -/
theorem agg7 : W7 m ρ c (Proc.devRef .tc main_v60)
    = val_main_v61 (F := Ideal) (x0 m c) (x1 m c) (x3 m c) (x4 m c) (x5 m c) := by
  show StableHlo.after hostOps2 (W6 m ρ c) (Proc.devRef .tc main_v60) = _
  read_stretch (W6 m ρ c)
  rw [prod6, src6, dst6, norm6]
  rfl

set_option maxHeartbeats 4000000 in
/-- The second bias, as a one-row table. -/
theorem bias7 : W7 m ρ c (Proc.devRef .tc main_v61) = shapeCast S1x256 (x6 m c) shapeCasts_S256_S1x256 := by
  show StableHlo.after hostOps2 (W6 m ρ c) (Proc.devRef .tc main_v61) = _
  read_stretch (W6 m ρ c)
  rw [launch6 m ρ c main_arg6 (by decide) (by decide) (by decide) (by decide) (by decide) (by decide)]
  rfl

set_option maxHeartbeats 4000000 in
/-- The first gate weights. -/
theorem gw7 : W7 m ρ c (Proc.devRef .tc main_v62) = x7 m c := by
  show StableHlo.after hostOps2 (W6 m ρ c) (Proc.devRef .tc main_v62) = _
  read_stretch (W6 m ρ c)
  rw [launch6 m ρ c main_arg7 (by decide) (by decide) (by decide) (by decide) (by decide) (by decide)]
  rfl

set_option maxHeartbeats 4000000 in
/-- The second gate weights. -/
theorem gu7 : W7 m ρ c (Proc.devRef .tc main_v63) = x9 m c := by
  show StableHlo.after hostOps2 (W6 m ρ c) (Proc.devRef .tc main_v63) = _
  read_stretch (W6 m ρ c)
  rw [launch6 m ρ c main_arg9 (by decide) (by decide) (by decide) (by decide) (by decide) (by decide)]
  rfl

set_option maxHeartbeats 4000000 in
/-- The first gate bias, as a one-row table. -/
theorem gwb7 : W7 m ρ c (Proc.devRef .tc main_v64) = shapeCast S1x256 (x8 m c) shapeCasts_S256_S1x256 := by
  show StableHlo.after hostOps2 (W6 m ρ c) (Proc.devRef .tc main_v64) = _
  read_stretch (W6 m ρ c)
  rw [launch6 m ρ c main_arg8 (by decide) (by decide) (by decide) (by decide) (by decide) (by decide)]
  rfl

set_option maxHeartbeats 4000000 in
/-- The second gate bias, as a one-row table. -/
theorem gub7 : W7 m ρ c (Proc.devRef .tc main_v65) = shapeCast S1x256 (x10 m c) shapeCasts_S256_S1x256 := by
  show StableHlo.after hostOps2 (W6 m ρ c) (Proc.devRef .tc main_v65) = _
  read_stretch (W6 m ρ c)
  rw [launch6 m ρ c main_arg10 (by decide) (by decide) (by decide) (by decide) (by decide) (by decide)]
  rfl

/-- The previous embedding, still as launched when the third region reads it. -/
theorem prev7 : W7 m ρ c (Proc.devRef .tc main_arg2) = x2 m c :=
  launch7 m ρ c main_arg2 (by decide) (by decide) (by decide) (by decide) (by decide) (by decide) (by decide)

/-! ## The gate: the two results -/

/-- The second result, the new embedding, is the reference's. -/
theorem result1 : W8 m ρ c (Proc.devRef .tc main_v66_1)
    = val_main_v64 (F := Ideal) (x0 m c) (x1 m c) (x3 m c) (x4 m c) (x5 m c) (x6 m c) := by
  refine (W8_arr m ρ c 8).trans ?_
  rw [Closed2.final8 (V7 m ρ) c]
  show Gcn.addRow (W7 m ρ c (Proc.devRef .tc main_v60)) (W7 m ρ c (Proc.devRef .tc main_v61)) = _
  rw [agg7, bias7]
  exact Cert.Gcn.Bridge.embed _ _ _ _ _ _ _

/-- The first result, the gated mix, is the reference's. -/
theorem result0 : W8 m ρ c (Proc.devRef .tc main_v66_0)
    = val_main_v84 (F := Ideal) (x0 m c) (x1 m c) (x2 m c) (x3 m c) (x4 m c) (x5 m c) (x6 m c) (x7 m c) (x8 m c) (x9 m c) (x10 m c) := by
  refine (W8_arr m ρ c 7).trans ?_
  rw [Closed2.final7 (V7 m ρ) c]
  show Gcn.blend (Gcn.addRow (W7 m ρ c (Proc.devRef .tc main_v60)) (W7 m ρ c (Proc.devRef .tc main_v61)))
    (W7 m ρ c (Proc.devRef .tc main_arg2)) (W7 m ρ c (Proc.devRef .tc main_v62)) (W7 m ρ c (Proc.devRef .tc main_v64))
    (W7 m ρ c (Proc.devRef .tc main_v63)) (W7 m ρ c (Proc.devRef .tc main_v65)) = _
  rw [agg7, bias7, prev7, gw7, gwb7, gu7, gub7,
    Cert.Gcn.Bridge.embed (x0 m c) (x1 m c) (x3 m c) (x4 m c) (x5 m c) (x6 m c) shapeCasts_S256_S1x256]
  exact Cert.Gcn.Bridge.result _ _ _ _ _ _ _ _ _ _ _ _ _

end Cert.KernelIdeal.Stages

end
-- ==== Proof.lean ====
/-
  A two-layer graph convolution with a gated update, computed two ways.

  Both programs start from node features x, an edge list, a previous embedding, and the weights and biases of two
  convolution layers and of a gate. Both add a self loop to every node, count each node's incoming edges, and weight an
  edge by the product of the reciprocal square roots of its endpoints' counts (zero where a count is zero). A layer
  multiplies the node table by a weight table, then, edge by edge, gathers the source's row, scales it by the edge's
  weight and adds it into the destination's row; the first layer adds its bias and clips at zero, the second adds its
  bias and is the new embedding h. The gate is alpha = logistic (h·gw + gwb + prev·gu + gub), and the result is
  alpha * h + (1 - alpha) * prev, returned beside h.

  One program does the three dense steps (x·W1; the clipped bias add and ·W2; the whole gate) in kernel regions that
  walk the 50000 rows in 25 blocks of 2000, the other on whole tables with host operations; the index arithmetic and
  the gather and scatter-add between them are the same host operations in both. Over the extended reals a change of
  float format is the identity and a matrix product's entry is the plain sum over k, the same sum whichever block
  computes it, so each dense step gives the same table in both programs (Region0, Region1, Region2 for the blocks;
  Bridge for the whole-table operations; the formulas are in Spec). The steps in between are the same operations
  applied to equal tables (Stages). No law beyond the commutativity and associativity of the sums is used, and none that
  would need the inputs to be finite.

  The three frame claims: the two kernel programs' are the generated frame certificates; the reference's is its run
  with the results dropped. The idealization ledger is empty.
-/
import proofs.«182096_j90486370992781_1_alg».proof.Defs
import proofs.«182096_j90486370992781_1_alg».proof.Proof.Gen.Kernel
import proofs.«182096_j90486370992781_1_alg».proof.Proof.Gen.Kernel.Frame
import proofs.«182096_j90486370992781_1_alg».proof.Proof.Gen.KernelIdeal
import proofs.«182096_j90486370992781_1_alg».proof.Proof.Gen.KernelIdeal.Frame
import proofs.«182096_j90486370992781_1_alg».proof.Proof.Gen.ReferenceIdeal
import proofs.«182096_j90486370992781_1_alg».proof.Proof.Gen.Pre_finite_inputs
import proofs.«182096_j90486370992781_1_alg».proof.Proof.KernelRun
import proofs.«182096_j90486370992781_1_alg».proof.Proof.RefRead
import proofs.«182096_j90486370992781_1_alg».proof.Proof.Stages
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- Run from memories that agree on the arguments, the two idealized programs end with equal results: both result
    pairs are the reference's two stages of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v84 (F := Ideal) (Cert.KernelIdeal.Stages.x0 m c) (Cert.KernelIdeal.Stages.x1 m c) (Cert.KernelIdeal.Stages.x2 m c) (Cert.KernelIdeal.Stages.x3 m c) (Cert.KernelIdeal.Stages.x4 m c) (Cert.KernelIdeal.Stages.x5 m c) (Cert.KernelIdeal.Stages.x6 m c) (Cert.KernelIdeal.Stages.x7 m c) (Cert.KernelIdeal.Stages.x8 m c) (Cert.KernelIdeal.Stages.x9 m c) (Cert.KernelIdeal.Stages.x10 m c),
    fun c => Cert.ReferenceIdeal.ReadP.val_main_v64 (F := Ideal) (Cert.KernelIdeal.Stages.x0 m c) (Cert.KernelIdeal.Stages.x1 m c) (Cert.KernelIdeal.Stages.x3 m c) (Cert.KernelIdeal.Stages.x4 m c) (Cert.KernelIdeal.Stages.x5 m c) (Cert.KernelIdeal.Stages.x6 m c), ?_, ?_⟩
  · exact (θ_run Cert.KernelIdeal.defs _ _).mono
      (fun r h c => ⟨(h c).1.trans (Cert.KernelIdeal.Stages.result0 m ρ c),
        (h c).2.1.trans (Cert.KernelIdeal.Stages.result1 m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨e0, e1, e2, e3, e4, e5, e6, e7, e8, e9, e10⟩ := hagree c
      rw [Cert.ReferenceIdeal.ReadP.val_main_v84_eq, e0, e1, e2, e3, e4, e5, e6, e7, e8, e9, e10]
    · obtain ⟨e0, e1, e2, e3, e4, e5, e6, e7, e8, e9, e10⟩ := hagree c
      rw [Cert.ReferenceIdeal.ReadP.val_main_v64_eq, e0, e1, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
